-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x25 : Shape := ⟨2, ![2000000, 25]⟩
abbrev S_ : Shape := ⟨0, ![]⟩

class Facts : Prop where
  bcast_S_S2000000x25 : S_.BroadcastsInDim S2000000x25 (![] : Fin 0 → Fin S2000000x25.rank)
  reducesTo_S2000000x25_S_d0_1 : S2000000x25.ReducesTo [0, 1] S_
  h_S_ : 0 < S_.numel

variable [Facts]

def fn {F : FTy → Type} [FloatOps F] (main_arg0 : FVec F S2000000x25 .f32) (main_arg1 : FVec F S2000000x25 .f32) : IVec S_ 1 :=
  let main_v0 : FVec F S2000000x25 .f32 := Host.absf main_arg0
  let main_cst : FVec F S_ .f32 := constant S_ .f32 0x7F800000#32
  let main_v1 : FVec F S2000000x25 .f32 := broadcastInDim S2000000x25 ![] bcast_S_S2000000x25 main_cst
  let main_v2 : IVec S2000000x25 1 := cmpf .olt main_v0 main_v1
  let main_c : IVec S_ 1 := constantI S_ 1 1#1
  let main_v3 : IVec S_ 1 := (fun x v => Host.reduce IntOp.andi x v reducesTo_S2000000x25_S_d0_1 h_S_) main_v2 main_c
  let main_v4 : FVec F S2000000x25 .f32 := Host.absf main_arg1
  let main_cst_0 : FVec F S_ .f32 := constant S_ .f32 0x7F800000#32
  let main_v5 : FVec F S2000000x25 .f32 := broadcastInDim S2000000x25 ![] bcast_S_S2000000x25 main_cst_0
  let main_v6 : IVec S2000000x25 1 := cmpf .olt main_v4 main_v5
  let main_c_1 : IVec S_ 1 := constantI S_ 1 1#1
  let main_v7 : IVec S_ 1 := (fun x v => Host.reduce IntOp.andi x v reducesTo_S2000000x25_S_d0_1 h_S_) main_v6 main_c_1
  let main_v8 : IVec S_ 1 := andi main_v3 main_v7
  main_v8
-- ==== Kernel.lean ====
abbrev S2000000x25 : Shape := ⟨2, ![2000000, 25]⟩
abbrev S2000000x5 : Shape := ⟨2, ![2000000, 5]⟩
abbrev S2000x25 : Shape := ⟨2, ![2000, 25]⟩
abbrev S2000x5 : Shape := ⟨2, ![2000, 5]⟩
abbrev S2000x1 : Shape := ⟨2, ![2000, 1]⟩

abbrev nBuf : Space → Nat
  | .hbm => 4
  | .vmem => 8
  | .smem => 0
  | _ => 0

abbrev bufTy : (tb : Table) → Fin (tcTables nBuf tb) → BufTy
  | .hbm, ⟨0, _⟩ => ⟨S2000000x25, .f32⟩
  | .hbm, ⟨1, _⟩ => ⟨S2000000x25, .f32⟩
  | .hbm, ⟨2, _⟩ => ⟨S2000000x5, .f32⟩
  | .hbm, ⟨3, _⟩ => ⟨S2000000x5, .f32⟩
  | .local _ .vmem, ⟨0, _⟩ => ⟨S2000x25, .f32⟩
  | .local _ .vmem, ⟨1, _⟩ => ⟨S2000x25, .f32⟩
  | .local _ .vmem, ⟨2, _⟩ => ⟨S2000x25, .f32⟩
  | .local _ .vmem, ⟨3, _⟩ => ⟨S2000x25, .f32⟩
  | .local _ .vmem, ⟨4, _⟩ => ⟨S2000x5, .f32⟩
  | .local _ .vmem, ⟨5, _⟩ => ⟨S2000x5, .f32⟩
  | .local _ .vmem, ⟨6, _⟩ => ⟨S2000x5, .f32⟩
  | .local _ .vmem, ⟨7, _⟩ => ⟨S2000x5, .f32⟩
  | _, _ => ⟨S2000000x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2000x25_S2000x25_0_0 : ∀ a, (![0, 0] : Fin 2 → Nat) a + S2000x25.size a ≤ S2000x25.size a
  h_S2000x25 : 0 < S2000x25.numel
  slices_S2000x25_o0_20_S2000x1 : S2000x25.Slices ![0, 20] S2000x1
  slices_S2000x25_o0_21_S2000x1 : S2000x25.Slices ![0, 21] S2000x1
  slices_S2000x25_o0_16_S2000x1 : S2000x25.Slices ![0, 16] S2000x1
  slices_S2000x25_o0_22_S2000x1 : S2000x25.Slices ![0, 22] S2000x1
  slices_S2000x25_o0_17_S2000x1 : S2000x25.Slices ![0, 17] S2000x1
  slices_S2000x25_o0_12_S2000x1 : S2000x25.Slices ![0, 12] S2000x1
  slices_S2000x25_o0_23_S2000x1 : S2000x25.Slices ![0, 23] S2000x1
  slices_S2000x25_o0_18_S2000x1 : S2000x25.Slices ![0, 18] S2000x1
  slices_S2000x25_o0_13_S2000x1 : S2000x25.Slices ![0, 13] S2000x1
  slices_S2000x25_o0_8_S2000x1 : S2000x25.Slices ![0, 8] S2000x1
  slices_S2000x25_o0_24_S2000x1 : S2000x25.Slices ![0, 24] S2000x1
  slices_S2000x25_o0_19_S2000x1 : S2000x25.Slices ![0, 19] S2000x1
  slices_S2000x25_o0_14_S2000x1 : S2000x25.Slices ![0, 14] S2000x1
  slices_S2000x25_o0_9_S2000x1 : S2000x25.Slices ![0, 9] S2000x1
  slices_S2000x25_o0_4_S2000x1 : S2000x25.Slices ![0, 4] S2000x1
  concatenates_S2000x1_S2000x1_S2000x1_S2000x1_S2000x1_S2000x5_d1 : Shape.Concatenates [S2000x1, S2000x1, S2000x1, S2000x1, S2000x1] S2000x5 1
  inb_S2000x5_S2000x5_0_0 : ∀ a, (![0, 0] : Fin 2 → Nat) a + S2000x5.size a ≤ S2000x5.size a
  h_S2000x5 : 0 < S2000x5.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x25.size a ≤ S2000000x25.size a
  hwx0_0 : ∀ i : grid0.Coords, EltTy.bits .f32 = 32 ∨ (Rect.block (s := S2000000x25) S2000x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x25.size a ≤ S2000000x25.size a
  hwx0_1 : ∀ i : grid0.Coords, EltTy.bits .f32 = 32 ∨ (Rect.block (s := S2000000x25) S2000x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x5.size a ≤ S2000000x5.size a
  hwx0_2 : ∀ i : grid0.Coords, EltTy.bits .f32 = 32 ∨ (Rect.block (s := S2000000x5) S2000x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x5.size a ≤ S2000000x5.size a
  hwx0_3 : ∀ i : grid0.Coords, EltTy.bits .f32 = 32 ∨ (Rect.block (s := S2000000x5) S2000x5.size (cc0_transform_3 i) (hinb0_3 i)).WholeWords (EltTy.packing .f32)

variable [Facts₀]

abbrev win0_0 : Pipeline.Window sig grid0 :=
  Pipeline.Window.ofSpec (Memref.whole main_arg0) S2000x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2000x5.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2000x5.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x25 : Shape := ⟨2, ![2000000, 25]⟩
abbrev S2000000x5x5 : Shape := ⟨3, ![2000000, 5, 5]⟩
abbrev S2000000x1x1 : Shape := ⟨3, ![2000000, 1, 1]⟩
abbrev S2000000 : Shape := ⟨1, ![2000000]⟩
abbrev S_ : Shape := ⟨0, ![]⟩
abbrev S2000000x1 : Shape := ⟨2, ![2000000, 1]⟩
abbrev S2000000x5 : Shape := ⟨2, ![2000000, 5]⟩

abbrev nBuf : Space → Nat
  | .hbm => 147
  | .vmem => 0
  | .smem => 0
  | _ => 0

abbrev hbmTy0_0 (i : Nat) : BufTy := match i % 128 with
  | 0 => ⟨S2000000x25, .f32⟩
  | 1 => ⟨S2000000x25, .f32⟩
  | 2 => ⟨S2000000x5x5, .f32⟩
  | 3 => ⟨S2000000x5x5, .f32⟩
  | 4 => ⟨S2000000x1x1, .f32⟩
  | 5 => ⟨S2000000, .f32⟩
  | 6 => ⟨S_, .f32⟩
  | 7 => ⟨S2000000, .f32⟩
  | 8 => ⟨S2000000x1x1, .f32⟩
  | 9 => ⟨S2000000, .f32⟩
  | 10 => ⟨S2000000x1x1, .f32⟩
  | 11 => ⟨S2000000, .f32⟩
  | 12 => ⟨S2000000, .f32⟩
  | 13 => ⟨S2000000x1x1, .f32⟩
  | 14 => ⟨S2000000, .f32⟩
  | 15 => ⟨S2000000, .f32⟩
  | 16 => ⟨S2000000x1x1, .f32⟩
  | 17 => ⟨S2000000, .f32⟩
  | 18 => ⟨S2000000x1x1, .f32⟩
  | 19 => ⟨S2000000, .f32⟩
  | 20 => ⟨S2000000, .f32⟩
  | 21 => ⟨S2000000x1x1, .f32⟩
  | 22 => ⟨S2000000, .f32⟩
  | 23 => ⟨S2000000x1x1, .f32⟩
  | 24 => ⟨S2000000, .f32⟩
  | 25 => ⟨S2000000, .f32⟩
  | 26 => ⟨S2000000x1x1, .f32⟩
  | 27 => ⟨S2000000, .f32⟩
  | 28 => ⟨S2000000, .f32⟩
  | 29 => ⟨S2000000, .f32⟩
  | 30 => ⟨S2000000x1x1, .f32⟩
  | 31 => ⟨S2000000, .f32⟩
  | 32 => ⟨S2000000x1x1, .f32⟩
  | 33 => ⟨S2000000, .f32⟩
  | 34 => ⟨S2000000, .f32⟩
  | 35 => ⟨S2000000x1x1, .f32⟩
  | 36 => ⟨S2000000, .f32⟩
  | 37 => ⟨S2000000x1x1, .f32⟩
  | 38 => ⟨S2000000, .f32⟩
  | 39 => ⟨S2000000, .f32⟩
  | 40 => ⟨S2000000, .f32⟩
  | 41 => ⟨S2000000x1x1, .f32⟩
  | 42 => ⟨S2000000, .f32⟩
  | 43 => ⟨S2000000x1x1, .f32⟩
  | 44 => ⟨S2000000, .f32⟩
  | 45 => ⟨S2000000, .f32⟩
  | 46 => ⟨S2000000x1x1, .f32⟩
  | 47 => ⟨S2000000, .f32⟩
  | 48 => ⟨S2000000, .f32⟩
  | 49 => ⟨S2000000, .f32⟩
  | 50 => ⟨S2000000x1x1, .f32⟩
  | 51 => ⟨S2000000, .f32⟩
  | 52 => ⟨S2000000x1x1, .f32⟩
  | 53 => ⟨S2000000, .f32⟩
  | 54 => ⟨S2000000, .f32⟩
  | 55 => ⟨S2000000x1x1, .f32⟩
  | 56 => ⟨S2000000, .f32⟩
  | 57 => ⟨S2000000x1x1, .f32⟩
  | 58 => ⟨S2000000, .f32⟩
  | 59 => ⟨S2000000, .f32⟩
  | 60 => ⟨S2000000, .f32⟩
  | 61 => ⟨S2000000x1x1, .f32⟩
  | 62 => ⟨S2000000, .f32⟩
  | 63 => ⟨S2000000x1x1, .f32⟩
  | 64 => ⟨S2000000, .f32⟩
  | 65 => ⟨S2000000, .f32⟩
  | 66 => ⟨S2000000, .f32⟩
  | 67 => ⟨S2000000x1x1, .f32⟩
  | 68 => ⟨S2000000, .f32⟩
  | 69 => ⟨S2000000x1x1, .f32⟩
  | 70 => ⟨S2000000, .f32⟩
  | 71 => ⟨S2000000, .f32⟩
  | 72 => ⟨S2000000x1x1, .f32⟩
  | 73 => ⟨S2000000, .f32⟩
  | 74 => ⟨S2000000, .f32⟩
  | 75 => ⟨S2000000, .f32⟩
  | 76 => ⟨S2000000x1, .f32⟩
  | 77 => ⟨S2000000x1, .f32⟩
  | 78 => ⟨S2000000x1, .f32⟩
  | 79 => ⟨S2000000x1, .f32⟩
  | 80 => ⟨S2000000x1, .f32⟩
  | 81 => ⟨S2000000x5, .f32⟩
  | 82 => ⟨S2000000x1x1, .f32⟩
  | 83 => ⟨S2000000, .f32⟩
  | 84 => ⟨S_, .f32⟩
  | 85 => ⟨S2000000, .f32⟩
  | 86 => ⟨S2000000, .f32⟩
  | 87 => ⟨S2000000x1x1, .f32⟩
  | 88 => ⟨S2000000, .f32⟩
  | 89 => ⟨S_, .f32⟩
  | 90 => ⟨S2000000, .f32⟩
  | 91 => ⟨S2000000, .f32⟩
  | 92 => ⟨S2000000x1x1, .f32⟩
  | 93 => ⟨S2000000, .f32⟩
  | 94 => ⟨S_, .f32⟩
  | 95 => ⟨S2000000, .f32⟩
  | 96 => ⟨S2000000, .f32⟩
  | 97 => ⟨S2000000x1x1, .f32⟩
  | 98 => ⟨S2000000, .f32⟩
  | 99 => ⟨S_, .f32⟩
  | 100 => ⟨S2000000, .f32⟩
  | 101 => ⟨S2000000, .f32⟩
  | 102 => ⟨S_, .f32⟩
  | 103 => ⟨S2000000, .f32⟩
  | 104 => ⟨S2000000, .f32⟩
  | 105 => ⟨S2000000, .f32⟩
  | 106 => ⟨S2000000x1x1, .f32⟩
  | 107 => ⟨S2000000, .f32⟩
  | 108 => ⟨S2000000, .f32⟩
  | 109 => ⟨S2000000, .f32⟩
  | 110 => ⟨S_, .f32⟩
  | 111 => ⟨S2000000, .f32⟩
  | 112 => ⟨S2000000, .f32⟩
  | 113 => ⟨S2000000, .f32⟩
  | 114 => ⟨S2000000x1x1, .f32⟩
  | 115 => ⟨S2000000, .f32⟩
  | 116 => ⟨S2000000, .f32⟩
  | 117 => ⟨S2000000, .f32⟩
  | 118 => ⟨S2000000, .f32⟩
  | 119 => ⟨S_, .f32⟩
  | 120 => ⟨S2000000, .f32⟩
  | 121 => ⟨S2000000, .f32⟩
  | 122 => ⟨S2000000, .f32⟩
  | 123 => ⟨S2000000x1x1, .f32⟩
  | 124 => ⟨S2000000, .f32⟩
  | 125 => ⟨S2000000, .f32⟩
  | 126 => ⟨S2000000x1x1, .f32⟩
  | 127 => ⟨S2000000, .f32⟩
  | _ => ⟨S2000000x25, .f32⟩

abbrev hbmTy0_1 (i : Nat) : BufTy := match i % 128 with
  | 0 => ⟨S_, .f32⟩
  | 1 => ⟨S2000000, .f32⟩
  | 2 => ⟨S2000000, .f32⟩
  | 3 => ⟨S2000000, .f32⟩
  | 4 => ⟨S2000000, .f32⟩
  | 5 => ⟨S2000000, .f32⟩
  | 6 => ⟨S_, .f32⟩
  | 7 => ⟨S2000000, .f32⟩
  | 8 => ⟨S2000000, .f32⟩
  | 9 => ⟨S2000000, .f32⟩
  | 10 => ⟨S2000000x1x1, .f32⟩
  | 11 => ⟨S2000000, .f32⟩
  | 12 => ⟨S2000000, .f32⟩
  | 13 => ⟨S2000000x1, .f32⟩
  | 14 => ⟨S2000000x1, .f32⟩
  | 15 => ⟨S2000000x1, .f32⟩
  | 16 => ⟨S2000000x1, .f32⟩
  | 17 => ⟨S2000000x1, .f32⟩
  | 18 => ⟨S2000000x5, .f32⟩
  | _ => ⟨S2000000x25, .f32⟩

abbrev hbmTy (i : Nat) : BufTy := match i / 128 with
  | 0 => hbmTy0_0 i
  | 1 => hbmTy0_1 i
  | _ => ⟨S2000000x25, .f32⟩

abbrev bufTy : (tb : Table) → Fin (tcTables nBuf tb) → BufTy
  | .hbm, ⟨i, _⟩ => hbmTy i
  | _, _ => ⟨S2000000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_cst_0 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_cst_1 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_cst_2 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_cst_3 : Ref sig .tc := ⟨.hbm, 99, rfl⟩
abbrev main_v93 : Ref sig .tc := ⟨.hbm, 100, rfl⟩
abbrev main_v94 : Ref sig .tc := ⟨.hbm, 101, rfl⟩
abbrev main_cst_4 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_cst_5 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_cst_6 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_cst_7 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_cst_8 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩

abbrev nD : Nat := 1
abbrev τ : Topo := Topo.v7x

variable {F : FTy → Type} [FloatOps F]

class Facts₀ : Prop where
  shapeCasts_S2000000x25_S2000000x5x5 : S2000000x25.ShapeCasts S2000000x5x5
  slices_S2000000x5x5_S2000000x1x1_0_0_0 : S2000000x5x5.Slices ![0, 0, 0] S2000000x1x1
  shapeCasts_S2000000x1x1_S2000000 : S2000000x1x1.ShapeCasts S2000000
  bcast_S_S2000000 : S_.BroadcastsInDim S2000000 (![] : Fin 0 → Fin S2000000.rank)
  slices_S2000000x5x5_S2000000x1x1_0_4_0 : S2000000x5x5.Slices ![0, 4, 0] S2000000x1x1
  slices_S2000000x5x5_S2000000x1x1_0_4_1 : S2000000x5x5.Slices ![0, 4, 1] S2000000x1x1
  slices_S2000000x5x5_S2000000x1x1_0_3_1 : S2000000x5x5.Slices ![0, 3, 1] S2000000x1x1
  slices_S2000000x5x5_S2000000x1x1_0_4_2 : S2000000x5x5.Slices ![0, 4, 2] S2000000x1x1
  slices_S2000000x5x5_S2000000x1x1_0_3_2 : S2000000x5x5.Slices ![0, 3, 2] S2000000x1x1
  slices_S2000000x5x5_S2000000x1x1_0_2_2 : S2000000x5x5.Slices ![0, 2, 2] S2000000x1x1
  slices_S2000000x5x5_S2000000x1x1_0_4_3 : S2000000x5x5.Slices ![0, 4, 3] S2000000x1x1
  slices_S2000000x5x5_S2000000x1x1_0_3_3 : S2000000x5x5.Slices ![0, 3, 3] S2000000x1x1
  slices_S2000000x5x5_S2000000x1x1_0_2_3 : S2000000x5x5.Slices ![0, 2, 3] S2000000x1x1
  slices_S2000000x5x5_S2000000x1x1_0_1_3 : S2000000x5x5.Slices ![0, 1, 3] S2000000x1x1
  slices_S2000000x5x5_S2000000x1x1_0_4_4 : S2000000x5x5.Slices ![0, 4, 4] S2000000x1x1
  slices_S2000000x5x5_S2000000x1x1_0_3_4 : S2000000x5x5.Slices ![0, 3, 4] S2000000x1x1
  slices_S2000000x5x5_S2000000x1x1_0_2_4 : S2000000x5x5.Slices ![0, 2, 4] S2000000x1x1
  slices_S2000000x5x5_S2000000x1x1_0_1_4 : S2000000x5x5.Slices ![0, 1, 4] S2000000x1x1
  slices_S2000000x5x5_S2000000x1x1_0_0_4 : S2000000x5x5.Slices ![0, 0, 4] S2000000x1x1
  bcast_S2000000_S2000000x1_0 : S2000000.BroadcastsInDim S2000000x1 (![0] : Fin 1 → Fin S2000000x1.rank)
  concatenates_S2000000x1_S2000000x1_S2000000x1_S2000000x1_S2000000x1_S2000000x5_d1 : Shape.Concatenates [S2000000x1, S2000000x1, S2000000x1, S2000000x1, S2000000x1] S2000000x5 1

variable [Facts₀]

class Facts : Prop extends Facts₀ where

variable [Facts]
-- ==== Proof.Spec.lean ====
/-
  The two results of the returning-rate computation, as functions of the two argument arrays, entry by entry.

  A sample is a row of 25 numbers read as a 5 × 5 grid, tier-major: entry (tier a, slot b) is column 5·a + b. Write
  p(a, b) for that entry of the first argument and m(a, b) for that entry of the second. Row r of each result has five
  columns; column 0 is the literal zero, and with q(a, b) = 1 − p(a, b) the other four are

    chain:       p40·p41·m31,   p40·p42 + p31·p32·m22,   p40·p43 + p31·p33 + p22·p23·m13,
                 p40·p44 + p31·p34 + p22·p24 + p13·p14·m04
    complement:  q31·(1 − q40)·m31,   q22·(1 − q40·q31)·m22,   q13·(1 − q40·q31·q22)·m13,
                 (1 − p04)·(1 − q40·q31·q22·q13)·m04

  with every product and sum associated to the left, exactly as both programs compute them. Nothing here is specific
  to a number system: the definitions are stated for any float instance, over its own multiply, add and subtract.
-/
import Idealize.ShloMosaic.PureOps.Vector
import Idealize.ShloMosaic.Lib.ValueIdx

noncomputable section

namespace Cert.ReturningRate

open Idealize.ShloMosaic Idealize.ShloMosaic.ValueIdx

variable {F : FTy → Type} [FloatOps F]

/-- The literal `0.0`. -/
abbrev lit0 : F .f32 := FloatOps.ofBits .f32 0x00000000#32
/-- The literal `1.0`. -/
abbrev lit1 : F .f32 := FloatOps.ofBits .f32 0x3F800000#32

/-- `1 − x`. -/
abbrev co (x : F .f32) : F .f32 := FloatOps.subf (lit1 (F := F)) x

/-- One sample's chained row: from its 25 probabilities `o` and 25 masks `m`, the five columns of the first result. -/
def chainRow (o m : Fin 25 → F .f32) (j : Fin 5) : F .f32 :=
  match j with
  | ⟨0, _⟩ => lit0
  | ⟨1, _⟩ => FloatOps.mulf (FloatOps.mulf (o 20) (o 21)) (m 16)
  | ⟨2, _⟩ => FloatOps.addf (FloatOps.mulf (o 20) (o 22)) (FloatOps.mulf (FloatOps.mulf (o 16) (o 17)) (m 12))
  | ⟨3, _⟩ => FloatOps.addf (FloatOps.addf (FloatOps.mulf (o 20) (o 23)) (FloatOps.mulf (o 16) (o 18)))
      (FloatOps.mulf (FloatOps.mulf (o 12) (o 13)) (m 8))
  | ⟨4, _⟩ => FloatOps.addf (FloatOps.addf (FloatOps.addf (FloatOps.mulf (o 20) (o 24)) (FloatOps.mulf (o 16) (o 19)))
      (FloatOps.mulf (o 12) (o 14))) (FloatOps.mulf (FloatOps.mulf (o 8) (o 9)) (m 4))

/-- One sample's complement row: the five columns of the second result. -/
def compRow (o m : Fin 25 → F .f32) (j : Fin 5) : F .f32 :=
  match j with
  | ⟨0, _⟩ => lit0
  | ⟨1, _⟩ => FloatOps.mulf (FloatOps.mulf (co (o 16)) (co (co (o 20)))) (m 16)
  | ⟨2, _⟩ => FloatOps.mulf (FloatOps.mulf (co (o 12)) (co (FloatOps.mulf (co (o 20)) (co (o 16))))) (m 12)
  | ⟨3, _⟩ => FloatOps.mulf (FloatOps.mulf (co (o 8))
      (co (FloatOps.mulf (FloatOps.mulf (co (o 20)) (co (o 16))) (co (o 12))))) (m 8)
  | ⟨4, _⟩ => FloatOps.mulf (FloatOps.mulf (co (o 4))
      (co (FloatOps.mulf (FloatOps.mulf (FloatOps.mulf (co (o 20)) (co (o 16))) (co (o 12))) (co (o 8))))) (m 4)

/-- Row `r` of an array of `n` samples. -/
abbrev rowOf {n : Nat} (a : (⟨2, ![n, 25]⟩ : Shape).Idx → F .f32) (r : Fin n) : Fin 25 → F .f32 := fun k => a (ix2 r k)

/-- The first result over `n` samples: entry (r, j) is column `j` of sample `r`'s chained row. -/
def chainOut {n : Nat} (a0 a1 : (⟨2, ![n, 25]⟩ : Shape).Idx → F .f32) : (⟨2, ![n, 5]⟩ : Shape).Idx → F .f32 :=
  fun i => chainRow (rowOf a0 (i 0)) (rowOf a1 (i 0)) (i 1)

/-- The second result over `n` samples: entry (r, j) is column `j` of sample `r`'s complement row. -/
def compOut {n : Nat} (a0 a1 : (⟨2, ![n, 25]⟩ : Shape).Idx → F .f32) : (⟨2, ![n, 5]⟩ : Shape).Idx → F .f32 :=
  fun i => compRow (rowOf a0 (i 0)) (rowOf a1 (i 0)) (i 1)

theorem chainOut_apply {n : Nat} (a0 a1 : (⟨2, ![n, 25]⟩ : Shape).Idx → F .f32) (r : Fin n) (j : Fin 5) :
    chainOut a0 a1 (ix2 r j) = chainRow (rowOf a0 r) (rowOf a1 r) j := rfl

theorem compOut_apply {n : Nat} (a0 a1 : (⟨2, ![n, 25]⟩ : Shape).Idx → F .f32) (r : Fin n) (j : Fin 5) :
    compOut a0 a1 (ix2 r j) = compRow (rowOf a0 r) (rowOf a1 r) j := rfl

end Cert.ReturningRate

end
-- ==== Proof.Columns.lean ====
/-
  Reading the layout operations of the two programs at one entry.

  Both programs take a sample's columns out of a row of 25, compute on single columns, and lay five single columns side
  by side. Three facts, for any element type and any number `n` of rows:
  * a one-column slice of an `n × 25` array at column offset `k`, read at row `r`, is the array at `(r, k)`;
  * five `n × 1` columns joined along the second axis, read at `(r, j)`, is column `j` at row `r`;
  * and, for the reshaped form — the `n × 25` array seen as `n × 5 × 5`, one `(a, b)` entry sliced out and flattened to
    a vector of length `n` — the value at `r` is the array at `(r, 5·a + b)`; a vector of length `n` laid out as an `n × 1`
    column, read at row `r`, is the vector at `r`.
-/
import Idealize.ShloMosaic.PureOps.ShapeOps
import Idealize.ShloMosaic.Lib.ValueIdx
import Idealize.ShloMosaic.Lib.Pipeline.Value

noncomputable section

namespace Cert.ReturningRate

open Idealize.ShloMosaic Idealize.ShloMosaic.ValueIdx

variable {α : Type} {n : Nat}

/-- Five columns as a family indexed by the column number. -/
abbrev five {β : Type} (c0 c1 c2 c3 c4 : β) : Fin 5 → β := fun j =>
  match j with
  | ⟨0, _⟩ => c0 | ⟨1, _⟩ => c1 | ⟨2, _⟩ => c2 | ⟨3, _⟩ => c3 | ⟨4, _⟩ => c4
  | ⟨_ + 5, h⟩ => absurd h (Nat.not_lt.2 (Nat.le_add_left _ _))

/-- A column offset that a one-column slice of 25 columns admits is below 25. -/
theorem col_lt {k : Nat} (h : (⟨2, ![n, 25]⟩ : Shape).Slices ![0, k] ⟨2, ![n, 1]⟩) : k < 25 := by
  have := h.2 1
  have e : k + 1 ≤ 25 := this
  omega

/-- A one-column slice at column `k`, read at row `r`, is the array at `(r, k)`. -/
theorem slice_col (k : Nat) (x : (⟨2, ![n, 25]⟩ : Shape).Idx → α) (h : (⟨2, ![n, 25]⟩ : Shape).Slices ![0, k] ⟨2, ![n, 1]⟩)
    (r : Fin n) :
    extractStridedSlice (⟨2, ![n, 1]⟩ : Shape) ![0, k] x h (ix2 r (0 : Fin 1)) = x (ix2 r (⟨k, col_lt h⟩ : Fin 25)) := by
  refine extractStridedSlice_apply ![0, k] x h _ _ fun d => ?_
  match d with
  | ⟨0, _⟩ => show r.val = 0 + r.val; omega
  | ⟨1, _⟩ => show k = k + 0; omega

/-- Five single columns joined side by side, read at `(r, j)`: column `j` at row `r`. -/
theorem join5 (c0 c1 c2 c3 c4 : (⟨2, ![n, 1]⟩ : Shape).Idx → α)
    (h : Shape.Concatenates (([⟨(⟨2, ![n, 1]⟩ : Shape), c0⟩, ⟨(⟨2, ![n, 1]⟩ : Shape), c1⟩, ⟨(⟨2, ![n, 1]⟩ : Shape), c2⟩,
      ⟨(⟨2, ![n, 1]⟩ : Shape), c3⟩, ⟨(⟨2, ![n, 1]⟩ : Shape), c4⟩] : List ((s : Shape) × (s.Idx → α))).map (·.1))
      (⟨2, ![n, 5]⟩ : Shape) 1)
    (r : Fin n) (j : Fin 5) :
    concatenate (⟨2, ![n, 5]⟩ : Shape) 1 [⟨(⟨2, ![n, 1]⟩ : Shape), c0⟩, ⟨(⟨2, ![n, 1]⟩ : Shape), c1⟩,
      ⟨(⟨2, ![n, 1]⟩ : Shape), c2⟩, ⟨(⟨2, ![n, 1]⟩ : Shape), c3⟩, ⟨(⟨2, ![n, 1]⟩ : Shape), c4⟩] h (ix2 r j)
      = five c0 c1 c2 c3 c4 j (ix2 r (0 : Fin 1)) := by
  show concatenate (⟨2, ![n, 5]⟩ : Shape) 1
    (List.ofFn fun q : Fin 5 => (⟨(⟨2, ![n, 1]⟩ : Shape), five c0 c1 c2 c3 c4 q⟩ : (s : Shape) × (s.Idx → α))) _ _ = _
  exact concatenate_ofFn_apply (t := (⟨2, ![n, 5]⟩ : Shape)) (s₁ := (⟨2, ![n, 1]⟩ : Shape)) (1 : Fin 2) (five c0 c1 c2 c3 c4) _
    rfl 1 rfl (ix2 r j) j (by show j.val / 1 = j.val; omega) (ix2 r (0 : Fin 1)) (by show 0 = j.val % 1; omega)
    (fun b hb => by
      match b with
      | ⟨0, _⟩ => rfl
      | ⟨1, _⟩ => exact absurd rfl hb)

/-- A tier and a slot that a one-entry slice of the 5 × 5 grid admits name a column below 25. -/
theorem grid_lt {a b : Nat} (h : (⟨3, ![n, 5, 5]⟩ : Shape).Slices ![0, a, b] ⟨3, ![n, 1, 1]⟩) : a * 5 + b < 25 := by
  have h1 := h.2 1
  have h2 := h.2 2
  have e1 : a + 1 ≤ 5 := h1
  have e2 : b + 1 ≤ 5 := h2
  omega

/-- The `(a, b)` entry of every sample, as a vector over the samples: the array seen as `n × 5 × 5`, sliced at `(a, b)`,
    flattened. At sample `r` it is the array at `(r, 5·a + b)`. -/
theorem grid_entry (a b : Nat) (x : (⟨2, ![n, 25]⟩ : Shape).Idx → α)
    (h1 : (⟨2, ![n, 25]⟩ : Shape).ShapeCasts ⟨3, ![n, 5, 5]⟩)
    (h2 : (⟨3, ![n, 5, 5]⟩ : Shape).Slices ![0, a, b] ⟨3, ![n, 1, 1]⟩)
    (h3 : (⟨3, ![n, 1, 1]⟩ : Shape).ShapeCasts ⟨1, ![n]⟩) (r : Fin n) :
    shapeCast (⟨1, ![n]⟩ : Shape) (extractStridedSlice (⟨3, ![n, 1, 1]⟩ : Shape) ![0, a, b]
      (shapeCast (⟨3, ![n, 5, 5]⟩ : Shape) x h1) h2) h3 (ix1 r) = x (ix2 r (⟨a * 5 + b, grid_lt h2⟩ : Fin 25)) := by
  have hab := grid_lt h2
  have ha : a < 5 := by omega
  have hb : b < 5 := by have := h2.2 2; have e : b + 1 ≤ 5 := this; omega
  refine (shapeCast_apply _ h3 (ix1 r) (ix3 r (0 : Fin 1) (0 : Fin 1)) ?_).trans ?_
  · rw [Shape.rowMajor_val_three, Shape.rowMajor_val_one]
    show (r.val * 1 + 0) * 1 + 0 = r.val
    omega
  refine (extractStridedSlice_apply ![0, a, b] _ h2 _ (ix3 r (⟨a, ha⟩ : Fin 5) (⟨b, hb⟩ : Fin 5)) fun d => ?_).trans ?_
  · match d with
    | ⟨0, _⟩ => show r.val = 0 + r.val; omega
    | ⟨1, _⟩ => show a = a + 0; omega
    | ⟨2, _⟩ => show b = b + 0; omega
  refine shapeCast_apply x h1 _ _ ?_
  rw [Shape.rowMajor_val_two, Shape.rowMajor_val_three]
  show r.val * 25 + (a * 5 + b) = (r.val * 5 + a) * 5 + b
  omega

/-- A vector over the samples laid out as one column, read at row `r`: the vector at `r`. -/
theorem as_col (v : (⟨1, ![n]⟩ : Shape).Idx → α) (h : (⟨1, ![n]⟩ : Shape).BroadcastsInDim ⟨2, ![n, 1]⟩ ![0]) (r : Fin n) :
    broadcastInDim (⟨2, ![n, 1]⟩ : Shape) ![0] h v (ix2 r (0 : Fin 1)) = v (ix1 r) := by
  refine broadcastInDim_apply ![0] h v _ _ fun d => ?_
  match d with
  | ⟨0, _⟩ =>
    show r.val = if n = 1 then 0 else r.val
    split
    · have := r.isLt; omega
    · rfl

end Cert.ReturningRate

end
-- ==== Proof.KernelRows.lean ====
/-
  What the kernel body stores, read at one entry of a block.

  The body loads a block of 2000 samples of each argument, and stores two blocks of 2000 × 5: five single columns joined
  side by side, each column a pointwise expression of one-column slices of the loaded blocks. Read at (r, j), the first
  stored block is column j of sample r's chained row and the second is column j of its complement row, the rows taken from
  the loaded blocks. Stated for any float instance: the proof only reads slices and the join, and unfolds the pointwise
  operations.
-/
import proofs.«120184_j19078244729512_1_alg».proof.Proof.Gen.KernelIdeal.Skeleton
import proofs.«120184_j19078244729512_1_alg».proof.Proof.Spec
import proofs.«120184_j19078244729512_1_alg».proof.Proof.Columns

noncomputable section

namespace Cert.KernelIdeal.Rows

open Cert.KernelIdeal Cert.KernelIdeal.Gen Idealize.ShloMosaic Idealize.ShloMosaic.ValueIdx Cert.ReturningRate

variable {F : FTy → Type} [FloatOps F]

/-- The first stored block at (r, j): column j of the chained row of sample r of the loaded blocks. -/
theorem chain_block (P0 P1 : Vec F S2000x25 .f32) (r : Fin 2000) (j : Fin 5) :
    k0_pay3 P0 P1 (ix2 r j) = chainRow (rowOf P0 r) (rowOf P1 r) j := by
  unfold k0_pay3
  refine (join5 _ _ _ _ _ _ r j).trans ?_
  match j with
  | ⟨0, _⟩ => rfl
  | ⟨1, _⟩ =>
    dsimp only [five]
    simp only [mulf, addf, slice_col]
    rfl
  | ⟨2, _⟩ =>
    dsimp only [five]
    simp only [mulf, addf, slice_col]
    rfl
  | ⟨3, _⟩ =>
    dsimp only [five]
    simp only [mulf, addf, slice_col]
    rfl
  | ⟨4, _⟩ =>
    dsimp only [five]
    simp only [mulf, addf, slice_col]
    rfl

/-- The second stored block at (r, j): column j of the complement row of sample r of the loaded blocks. -/
theorem comp_block (P0 P1 : Vec F S2000x25 .f32) (r : Fin 2000) (j : Fin 5) :
    k0_pay1 P0 P1 (k0_pay2 (F := F)) (k0_pay4 P0) (k0_pay5 P0) (Scalar.ofBits .f32 0x3F800000#32) (ix2 r j)
      = compRow (rowOf P0 r) (rowOf P1 r) j := by
  unfold k0_pay1 k0_pay4 k0_pay5
  refine (join5 _ _ _ _ _ _ r j).trans ?_
  match j with
  | ⟨0, _⟩ => rfl
  | ⟨1, _⟩ =>
    dsimp only [five]
    simp only [mulf, subf, broadcast, slice_col]
    rfl
  | ⟨2, _⟩ =>
    dsimp only [five]
    simp only [mulf, subf, broadcast, slice_col]
    rfl
  | ⟨3, _⟩ =>
    dsimp only [five]
    simp only [mulf, subf, broadcast, slice_col]
    rfl
  | ⟨4, _⟩ =>
    dsimp only [five]
    simp only [mulf, subf, broadcast, slice_col]
    rfl

end Cert.KernelIdeal.Rows

end
-- ==== Proof.KernelValue.lean ====
/-
  The kernel's two result arrays after the run, as whole-array functions of the arguments.

  Grid point t stages rows 2000·t … 2000·t + 1999 of both arguments (all 25 columns) and writes back rows
  2000·t … 2000·t + 1999 of both results (all 5 columns). What it writes back at (r, j) is column j of the chained
  (complement) row of sample r of the staged blocks, and sample r of a staged block is sample 2000·t + r of the
  argument: so point t writes block t of the whole-array functions `chainOut` and `compOut`. The 1000 blocks tile the
  2,000,000 rows, so after the run each result array is that function of the argument arrays.
-/
import proofs.«120184_j19078244729512_1_alg».proof.Proof.Gen.KernelIdeal.Value
import proofs.«120184_j19078244729512_1_alg».proof.Proof.KernelRows

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.ReturningRate
open Idealize.ShloMosaic.Pipeline (Dat)

variable {F : FTy → Type} [FloatOps F]

/-- The first stored block at (r, j) from the argument arrays, when row r of each loaded block is row R of its array. -/
theorem chain_block_at (x0 x1 : Vec F S2000x25 .f32) (a0 a1 : Vec F S2000000x25 .f32) (r : Fin 2000) (j : Fin 5)
    (R : Fin 2000000) (h0 : ∀ k : Fin 25, x0 (ix2 r k) = a0 (ix2 R k)) (h1 : ∀ k : Fin 25, x1 (ix2 r k) = a1 (ix2 R k)) :
    k0_pay3 x0 x1 (ix2 r j) = chainOut a0 a1 (ix2 R j) := by
  rw [Rows.chain_block, chainOut_apply]
  congr 1
  · exact funext h0
  · exact funext h1

/-- The second stored block at (r, j) from the argument arrays, likewise. -/
theorem comp_block_at (x0 x1 : Vec F S2000x25 .f32) (a0 a1 : Vec F S2000000x25 .f32) (r : Fin 2000) (j : Fin 5)
    (R : Fin 2000000) (h0 : ∀ k : Fin 25, x0 (ix2 r k) = a0 (ix2 R k)) (h1 : ∀ k : Fin 25, x1 (ix2 r k) = a1 (ix2 R k)) :
    k0_pay1 x0 x1 (k0_pay2 (F := F)) (k0_pay4 x0) (k0_pay5 x0) (Scalar.ofBits .f32 0x3F800000#32) (ix2 r j)
      = compOut a0 a1 (ix2 R j) := by
  rw [Rows.comp_block, compOut_apply]
  congr 1
  · exact funext h0
  · exact funext h1

variable (m : (ℓ : Loc nD τ sig) → Buf (Elt F) ℓ) (ρ : Dev nD → PrngReg)

theorem origin : (![0, 0] : Fin 2 → Nat) = fun _ => 0 := funext fun a => by fin_cases a <;> rfl

/-- Where the four windows' blocks lie, decided over the 1000 grid points: every window's block index on the row axis
    is the point's position, and on the column axis it is 0. -/
theorem where_blocks : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_3.index t (0 : Fin 2) = win0_2.index t (0 : Fin 2) ∧ win0_3.index t (1 : Fin 2) = 0
    ∧ win0_2.index t (1 : Fin 2) = 0 ∧ win0_2.index t (0 : Fin 2) = t.val :=
  (by decide +kernel : ∀ t : Fin grid0.N, _)

/-- WHAT POINT `t` WRITES BACK to result 0 is block `t` of `chainOut` of the argument arrays. -/
theorem wrote2 (c : Dev nD) (t : Fin cfg0.N) :
    (dats m 0 c).flushed 2 t
      = ((cfg0.win 2).blk t).view.read (Elt F) (chainOut (V m c main_arg0) (V m c main_arg1)) := by
  rw [flushed2]
  unfold out0_2
  rw [View.canon_unit_zero origin]
  simp only [View.ld_unit_zero (S := S2000x25) origin]
  obtain ⟨e00, e01, e10, e11, e30, e31, e21, e20⟩ := where_blocks t
  have ht : t.val < 1000 := lt_of_lt_of_eq t.isLt N_0
  funext y
  show k0_pay3 (iblk m c 0 t) (iblk m c 1 t) y = chainOut (V m c main_arg0) (V m c main_arg1) (((cfg0.win 2).blk t).view.emb y)
  have hy0 : (y 0).val < 2000 := (y 0).isLt
  have hy1 : (y 1).val < 5 := (y 1).isLt
  have hy : y = ix2 (⟨(y 0).val, hy0⟩ : Fin 2000) (⟨(y 1).val, hy1⟩ : Fin 5) :=
    funext fun a => match a with | ⟨0, _⟩ => rfl | ⟨1, _⟩ => rfl
  have he : ((cfg0.win 2).blk t).view.emb y
      = ix2 (⟨t.val * 2000 + (y 0).val, by omega⟩ : Fin 2000000) (⟨(y 1).val, hy1⟩ : Fin 5) := by
    funext a; apply Fin.ext
    match a with
    | ⟨0, _⟩ => show win0_2.index t (0 : Fin 2) * 2000 + 1 * (y 0).val = t.val * 2000 + (y 0).val; omega
    | ⟨1, _⟩ => show win0_2.index t (1 : Fin 2) * 5 + 1 * (y 1).val = (y 1).val; omega
  refine (congrArg (fun z => k0_pay3 (iblk m c 0 t) (iblk m c 1 t) z) hy).trans ?_
  refine (chain_block_at (F := F) (iblk m c 0 t) (iblk m c 1 t) (V m c main_arg0) (V m c main_arg1)
    ⟨(y 0).val, hy0⟩ ⟨(y 1).val, hy1⟩ ⟨t.val * 2000 + (y 0).val, by omega⟩ ?_ ?_).trans (congrArg _ he.symm)
  · intro k
    show V m c main_arg0 (((cfg0.win 0).blk t).view.emb (ix2 (⟨(y 0).val, hy0⟩ : Fin 2000) k)) = _
    refine congrArg _ (funext fun a => Fin.ext ?_)
    have hk : k.val < 25 := k.isLt
    match a with
    | ⟨0, _⟩ => show win0_0.index t (0 : Fin 2) * 2000 + 1 * (y 0).val = t.val * 2000 + (y 0).val; omega
    | ⟨1, _⟩ => show win0_0.index t (1 : Fin 2) * 25 + 1 * k.val = k.val; omega
  · intro k
    show V m c main_arg1 (((cfg0.win 1).blk t).view.emb (ix2 (⟨(y 0).val, hy0⟩ : Fin 2000) k)) = _
    refine congrArg _ (funext fun a => Fin.ext ?_)
    have hk : k.val < 25 := k.isLt
    match a with
    | ⟨0, _⟩ => show win0_1.index t (0 : Fin 2) * 2000 + 1 * (y 0).val = t.val * 2000 + (y 0).val; omega
    | ⟨1, _⟩ => show win0_1.index t (1 : Fin 2) * 25 + 1 * k.val = k.val; omega

/-- An index of result 0's array is in point `t`'s block iff each coordinate is in the block's range on its axis. -/
theorem in_block2 (t : Fin cfg0.N) (i : S2000000x5.Idx) :
    i ∈ ((cfg0.win 2).blk t).view.set ↔ ∀ a : Fin 2, win0_2.index t a * S2000x5.size a ≤ (i a).val ∧ (i a).val < win0_2.index t a * S2000x5.size a + S2000x5.size a := by
  show i ∈ ((View.whole main_v0_0).slice (win0_2.rect t)).set ↔ _
  rw [View.set_slice_whole, Rect.mem_set_unit]
  exact Iff.rfl

/-- Every index of result 0's array is in the block of the point its row falls in: row `r` in point `r / 2000`'s. -/
theorem covered2 (i : S2000000x5.Idx) :
    ∃ t : Fin cfg0.N, (cfg0.win 2).flush t = true ∧ i ∈ ((cfg0.win 2).blk t).view.set := by
  have hi0 : (i 0).val < 2000000 := (i 0).isLt
  have hi1 : (i 1).val < 5 := (i 1).isLt
  have hN : grid0.N = 1000 := N_0
  let t : Fin cfg0.N := ⟨(i 0).val / 2000, by show (i 0).val / 2000 < grid0.N; omega⟩
  obtain ⟨e00, e01, e10, e11, e30, e31, e21, e20⟩ := where_blocks t
  have et : t.val = (i 0).val / 2000 := rfl
  refine ⟨t, flush0_2 t, ?_⟩
  rw [in_block2]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 5 ≤ (i 1).val ∧ (i 1).val < win0_2.index t (1 : Fin 2) * 5 + 5; omega

/-- Result 0's array after the run is `chainOut` of the argument arrays. -/
theorem final2 (c : Dev nD) :
    (dats m 0 c).arrAt 2 cfg0.N = chainOut (m ((c : Thread nD τ).loc main_arg0)) (m ((c : Thread nD τ).loc main_arg1)) :=
  (dats m 0 c).arrAt_eq_of_cover 2 _ (fun t _ => wrote2 m c t) covered2

/-- WHAT POINT `t` WRITES BACK to result 1 is block `t` of `compOut` of the argument arrays. -/
theorem wrote3 (c : Dev nD) (t : Fin cfg0.N) :
    (dats m 0 c).flushed 3 t
      = ((cfg0.win 3).blk t).view.read (Elt F) (compOut (V m c main_arg0) (V m c main_arg1)) := by
  rw [flushed3]
  unfold out0_3
  rw [View.canon_unit_zero origin]
  simp only [View.ld_unit_zero (S := S2000x25) origin]
  obtain ⟨e00, e01, e10, e11, e30, e31, e21, e20⟩ := where_blocks t
  have ht : t.val < 1000 := lt_of_lt_of_eq t.isLt N_0
  funext y
  show k0_pay1 (iblk m c 0 t) (iblk m c 1 t) (k0_pay2 (F := F)) (k0_pay4 (iblk m c 0 t)) (k0_pay5 (iblk m c 0 t)) (Scalar.ofBits .f32 0x3F800000#32) y = compOut (V m c main_arg0) (V m c main_arg1) (((cfg0.win 3).blk t).view.emb y)
  have hy0 : (y 0).val < 2000 := (y 0).isLt
  have hy1 : (y 1).val < 5 := (y 1).isLt
  have hy : y = ix2 (⟨(y 0).val, hy0⟩ : Fin 2000) (⟨(y 1).val, hy1⟩ : Fin 5) :=
    funext fun a => match a with | ⟨0, _⟩ => rfl | ⟨1, _⟩ => rfl
  have he : ((cfg0.win 3).blk t).view.emb y
      = ix2 (⟨t.val * 2000 + (y 0).val, by omega⟩ : Fin 2000000) (⟨(y 1).val, hy1⟩ : Fin 5) := by
    funext a; apply Fin.ext
    match a with
    | ⟨0, _⟩ => show win0_3.index t (0 : Fin 2) * 2000 + 1 * (y 0).val = t.val * 2000 + (y 0).val; omega
    | ⟨1, _⟩ => show win0_3.index t (1 : Fin 2) * 5 + 1 * (y 1).val = (y 1).val; omega
  refine (congrArg (fun z => k0_pay1 (iblk m c 0 t) (iblk m c 1 t) (k0_pay2 (F := F)) (k0_pay4 (iblk m c 0 t)) (k0_pay5 (iblk m c 0 t)) (Scalar.ofBits .f32 0x3F800000#32) z) hy).trans ?_
  refine (comp_block_at (F := F) (iblk m c 0 t) (iblk m c 1 t) (V m c main_arg0) (V m c main_arg1)
    ⟨(y 0).val, hy0⟩ ⟨(y 1).val, hy1⟩ ⟨t.val * 2000 + (y 0).val, by omega⟩ ?_ ?_).trans (congrArg _ he.symm)
  · intro k
    show V m c main_arg0 (((cfg0.win 0).blk t).view.emb (ix2 (⟨(y 0).val, hy0⟩ : Fin 2000) k)) = _
    refine congrArg _ (funext fun a => Fin.ext ?_)
    have hk : k.val < 25 := k.isLt
    match a with
    | ⟨0, _⟩ => show win0_0.index t (0 : Fin 2) * 2000 + 1 * (y 0).val = t.val * 2000 + (y 0).val; omega
    | ⟨1, _⟩ => show win0_0.index t (1 : Fin 2) * 25 + 1 * k.val = k.val; omega
  · intro k
    show V m c main_arg1 (((cfg0.win 1).blk t).view.emb (ix2 (⟨(y 0).val, hy0⟩ : Fin 2000) k)) = _
    refine congrArg _ (funext fun a => Fin.ext ?_)
    have hk : k.val < 25 := k.isLt
    match a with
    | ⟨0, _⟩ => show win0_1.index t (0 : Fin 2) * 2000 + 1 * (y 0).val = t.val * 2000 + (y 0).val; omega
    | ⟨1, _⟩ => show win0_1.index t (1 : Fin 2) * 25 + 1 * k.val = k.val; omega

/-- An index of result 1's array is in point `t`'s block iff each coordinate is in the block's range on its axis. -/
theorem in_block3 (t : Fin cfg0.N) (i : S2000000x5.Idx) :
    i ∈ ((cfg0.win 3).blk t).view.set ↔ ∀ a : Fin 2, win0_3.index t a * S2000x5.size a ≤ (i a).val ∧ (i a).val < win0_3.index t a * S2000x5.size a + S2000x5.size a := by
  show i ∈ ((View.whole main_v0_1).slice (win0_3.rect t)).set ↔ _
  rw [View.set_slice_whole, Rect.mem_set_unit]
  exact Iff.rfl

/-- Every index of result 1's array is in the block of the point its row falls in: row `r` in point `r / 2000`'s. -/
theorem covered3 (i : S2000000x5.Idx) :
    ∃ t : Fin cfg0.N, (cfg0.win 3).flush t = true ∧ i ∈ ((cfg0.win 3).blk t).view.set := by
  have hi0 : (i 0).val < 2000000 := (i 0).isLt
  have hi1 : (i 1).val < 5 := (i 1).isLt
  have hN : grid0.N = 1000 := N_0
  let t : Fin cfg0.N := ⟨(i 0).val / 2000, by show (i 0).val / 2000 < grid0.N; omega⟩
  obtain ⟨e00, e01, e10, e11, e30, e31, e21, e20⟩ := where_blocks t
  have et : t.val = (i 0).val / 2000 := rfl
  refine ⟨t, flush0_3 t, ?_⟩
  rw [in_block3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 5 ≤ (i 1).val ∧ (i 1).val < win0_3.index t (1 : Fin 2) * 5 + 5; omega

/-- Result 1's array after the run is `compOut` of the argument arrays. -/
theorem final3 (c : Dev nD) :
    (dats m 0 c).arrAt 3 cfg0.N = compOut (m ((c : Thread nD τ).loc main_arg0)) (m ((c : Thread nD τ).loc main_arg1)) :=
  (dats m 0 c).arrAt_eq_of_cover 3 _ (fun t _ => wrote3 m c t) covered3

/-- The frame run re-posted: each result array at its function of the arguments, the arguments unchanged. -/
theorem run : θ_run defs (onTc (τ := τ) (main (F := F))) ⟨m, fun _ => 0, ρ⟩ fun r => ∀ c : Dev nD,
      r.2.mem ((c : Thread nD τ).loc main_v0_0) = chainOut (m ((c : Thread nD τ).loc main_arg0)) (m ((c : Thread nD τ).loc main_arg1))
      ∧ r.2.mem ((c : Thread nD τ).loc main_v0_1) = compOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (run_blocks m ρ)

end Cert.KernelIdeal.Whole

end
-- ==== Proof.RefStages.lean ====
/-
  The reference program, list by list: what each of the fourteen lists of operations leaves in the buffers that later
  lists read, from ANY contents `W` of the buffers before it.

  The reference first views each argument as an n × 5 × 5 grid (`grid`). Every later value is a vector over the samples:
  an entry (a, b) of the grid for every sample, or a pointwise product, sum or difference of such vectors. Read at
  sample r, an entry vector is the grid at (r, a, b): `entryRow X r` collects the 25 entries of sample r, numbered
  5·a + b, so that a list's result at r is a column of the chained row or the complement row of `entryRow`. When the
  grid is `grid A`, the 25 entries of sample r are row r of `A` (`entryRow_grid`). The two results join five such
  vectors as the columns of an n × 5 array.
-/
import proofs.«120184_j19078244729512_1_alg».proof.Proof.RefOps
import proofs.«120184_j19078244729512_1_alg».proof.Proof.Spec
import proofs.«120184_j19078244729512_1_alg».proof.Proof.Columns

noncomputable section

namespace Cert.ReferenceIdeal.Stages

open Cert.ReferenceIdeal Cert.ReferenceIdeal.Gen Cert.ReferenceIdeal.Chunks Idealize.ShloMosaic Idealize.ShloMosaic.TcCoe
open Idealize.SL.Sem Idealize.ShloMosaic.StableHlo Idealize.ShloMosaic.ValueIdx Cert.ReturningRate

variable {F : FTy → Type} [FloatOps F]

local infixl:70 " ⊗ " => FloatOps.mulf
local infixl:65 " ⊕ " => FloatOps.addf

/-- An argument array seen as n × 5 × 5. -/
abbrev grid (A : Vec F S2000000x25 .f32) : Vec F S2000000x5x5 .f32 :=
  shapeCast S2000000x5x5 A shapeCasts_S2000000x25_S2000000x5x5

/-- Entry number k = 5·a + b of the grid is a one-entry slice of it. -/
theorem entry_ok (k : Fin 25) : S2000000x5x5.Slices ![0, k.val / 5, k.val % 5] S2000000x1x1 :=
  ⟨rfl, fun a => by
    have hk : k.val < 25 := k.isLt
    match a with
    | ⟨0, _⟩ => show 0 + 2000000 ≤ 2000000; omega
    | ⟨1, _⟩ => show k.val / 5 + 1 ≤ 5; omega
    | ⟨2, _⟩ => show k.val % 5 + 1 ≤ 5; omega⟩

/-- The 25 entries of sample r of a grid, entry (a, b) numbered 5·a + b: each the grid sliced at (a, b) and flattened to a
    vector over the samples, read at r. -/
def entryRow (X : Vec F S2000000x5x5 .f32) (r : Fin 2000000) : Fin 25 → F .f32 := fun k =>
  shapeCast S2000000 (extractStridedSlice S2000000x1x1 ![0, k.val / 5, k.val % 5] X (entry_ok k))
    shapeCasts_S2000000x1x1_S2000000 (ix1 r)

/-- The entries of sample r of an argument's grid are row r of the argument. -/
theorem entryRow_grid (A : Vec F S2000000x25 .f32) (r : Fin 2000000) : entryRow (grid A) r = rowOf A r := by
  funext k
  have hk : k.val < 25 := k.isLt
  refine (grid_entry (k.val / 5) (k.val % 5) A shapeCasts_S2000000x25_S2000000x5x5 (entry_ok k)
    shapeCasts_S2000000x1x1_S2000000 r).trans ?_
  refine congrArg A (congrArg (ix2 r) (Fin.ext ?_))
  show k.val / 5 * 5 + k.val % 5 = k.val
  omega

/-! ## The first list: the two grids and the zero vector -/

theorem cA_v0 (W : Valuation τ sig (Elt F)) :
    after cA W (no_index (Proc.devRef .tc main_v0)) = grid (W (Proc.devRef .tc main_arg0)) := by
  unfold cA; after_results; rfl

theorem cA_v1 (W : Valuation τ sig (Elt F)) :
    after cA W (no_index (Proc.devRef .tc main_v1)) = grid (W (Proc.devRef .tc main_arg1)) := by
  unfold cA; after_results; rfl

theorem cA_v4 (W : Valuation τ sig (Elt F)) (r : Fin 2000000) :
    after cA W (no_index (Proc.devRef .tc main_v4)) (ix1 r) = lit0 := by
  unfold cA; after_results; rfl

/-! ## The four columns of the first result -/

theorem cB_v12 (W : Valuation τ sig (Elt F)) (r : Fin 2000000) :
    after cB W (no_index (Proc.devRef .tc main_v12)) (ix1 r)
      = chainRow (entryRow (W (Proc.devRef .tc main_v0)) r) (entryRow (W (Proc.devRef .tc main_v1)) r) 1 := by
  unfold cB; after_results; rfl

set_option maxHeartbeats 2000000 in
theorem cC_v26 (W : Valuation τ sig (Elt F)) (r : Fin 2000000) :
    after cC W (no_index (Proc.devRef .tc main_v26)) (ix1 r)
      = chainRow (entryRow (W (Proc.devRef .tc main_v0)) r) (entryRow (W (Proc.devRef .tc main_v1)) r) 2 := by
  unfold cC; after_results_simp <;> rfl

set_option maxHeartbeats 2000000 in
theorem cD_v46 (W : Valuation τ sig (Elt F)) (r : Fin 2000000) :
    after cD W (no_index (Proc.devRef .tc main_v46)) (ix1 r)
      = chainRow (entryRow (W (Proc.devRef .tc main_v0)) r) (entryRow (W (Proc.devRef .tc main_v1)) r) 3 := by
  unfold cD; after_results_simp <;> rfl

/-! The fourth column is computed across two lists: the first leaves its first two products summed (`main_v57`) and the
    (2, 2) entry still as an n × 1 × 1 slice (`main_v58`); the second finishes it. -/

set_option maxHeartbeats 2000000 in
theorem cE1_v57 (W : Valuation τ sig (Elt F)) (r : Fin 2000000) :
    after cE1 W (no_index (Proc.devRef .tc main_v57)) (ix1 r)
      = ((entryRow (W (Proc.devRef .tc main_v0)) r) 20 ⊗ (entryRow (W (Proc.devRef .tc main_v0)) r) 24) ⊕ ((entryRow (W (Proc.devRef .tc main_v0)) r) 16 ⊗ (entryRow (W (Proc.devRef .tc main_v0)) r) 19) := by
  unfold cE1; after_results_simp <;> rfl

set_option maxHeartbeats 2000000 in
theorem cE1_v58 (W : Valuation τ sig (Elt F)) :
    after cE1 W (no_index (Proc.devRef .tc main_v58))
      = extractStridedSlice S2000000x1x1 ![0, 2, 2] (W (Proc.devRef .tc main_v0)) (entry_ok 12) := by
  unfold cE1; after_results_simp <;> rfl

set_option maxHeartbeats 2000000 in
theorem cE2_v72 (W : Valuation τ sig (Elt F)) (r : Fin 2000000) :
    after cE2 W (no_index (Proc.devRef .tc main_v72)) (ix1 r)
      = (W (Proc.devRef .tc main_v57) (ix1 r) ⊕ (shapeCast S2000000 (W (Proc.devRef .tc main_v58)) shapeCasts_S2000000x1x1_S2000000 (ix1 r) ⊗ (entryRow (W (Proc.devRef .tc main_v0)) r) 14))
        ⊕ (((entryRow (W (Proc.devRef .tc main_v0)) r) 8 ⊗ (entryRow (W (Proc.devRef .tc main_v0)) r) 9) ⊗ (entryRow (W (Proc.devRef .tc main_v1)) r) 4) := by
  unfold cE2; after_results_simp <;> rfl

/-! ## The first result: the five vectors as columns -/

theorem cF_v78 (W : Valuation τ sig (Elt F)) (r : Fin 2000000) (j : Fin 5) :
    after cF W (no_index (Proc.devRef .tc main_v78)) (ix2 r j)
      = five (W (Proc.devRef .tc main_v4)) (W (Proc.devRef .tc main_v12)) (W (Proc.devRef .tc main_v26)) (W (Proc.devRef .tc main_v46)) (W (Proc.devRef .tc main_v72)) j (ix1 r) := by
  unfold cF; after_results
  dsimp only [Matrix.cons_val]
  repeat (first | rw [unary_result] | (rw [unary_result_ne]; rotate_left; decide))
  refine (join5 _ _ _ _ _ _ r j).trans ?_
  match j with
  | ⟨0, _⟩ => exact as_col _ _ r
  | ⟨1, _⟩ => exact as_col _ _ r
  | ⟨2, _⟩ => exact as_col _ _ r
  | ⟨3, _⟩ => exact as_col _ _ r
  | ⟨4, _⟩ => exact as_col _ _ r

/-! ## The complements q = 1 − p of the four diagonal entries -/

set_option maxHeartbeats 2000000 in
theorem cG_v82 (W : Valuation τ sig (Elt F)) (r : Fin 2000000) :
    after cG W (no_index (Proc.devRef .tc main_v82)) (ix1 r) = co ((entryRow (W (Proc.devRef .tc main_v0)) r) 20) := by
  unfold cG; after_results_simp <;> rfl
set_option maxHeartbeats 2000000 in
theorem cG_v86 (W : Valuation τ sig (Elt F)) (r : Fin 2000000) :
    after cG W (no_index (Proc.devRef .tc main_v86)) (ix1 r) = co ((entryRow (W (Proc.devRef .tc main_v0)) r) 16) := by
  unfold cG; after_results_simp <;> rfl
set_option maxHeartbeats 2000000 in
theorem cG_v90 (W : Valuation τ sig (Elt F)) (r : Fin 2000000) :
    after cG W (no_index (Proc.devRef .tc main_v90)) (ix1 r) = co ((entryRow (W (Proc.devRef .tc main_v0)) r) 12) := by
  unfold cG; after_results_simp <;> rfl
set_option maxHeartbeats 2000000 in
theorem cG_v94 (W : Valuation τ sig (Elt F)) (r : Fin 2000000) :
    after cG W (no_index (Proc.devRef .tc main_v94)) (ix1 r) = co ((entryRow (W (Proc.devRef .tc main_v0)) r) 8) := by
  unfold cG; after_results_simp <;> rfl

/-! ## The four columns of the second result, over the complements -/

theorem cH_v100 (W : Valuation τ sig (Elt F)) (r : Fin 2000000) :
    after cH W (no_index (Proc.devRef .tc main_v100)) (ix1 r) = (W (Proc.devRef .tc main_v86) (ix1 r) ⊗ co (W (Proc.devRef .tc main_v82) (ix1 r))) ⊗ (entryRow (W (Proc.devRef .tc main_v1)) r) 16 := by
  unfold cH; after_results; rfl

theorem cI_v107 (W : Valuation τ sig (Elt F)) (r : Fin 2000000) :
    after cI W (no_index (Proc.devRef .tc main_v107)) (ix1 r)
      = (W (Proc.devRef .tc main_v90) (ix1 r) ⊗ co (W (Proc.devRef .tc main_v82) (ix1 r) ⊗ W (Proc.devRef .tc main_v86) (ix1 r))) ⊗ (entryRow (W (Proc.devRef .tc main_v1)) r) 12 := by
  unfold cI; after_results; rfl

theorem cJ1_v111 (W : Valuation τ sig (Elt F)) (r : Fin 2000000) :
    after cJ1 W (no_index (Proc.devRef .tc main_v111)) (ix1 r) = co ((W (Proc.devRef .tc main_v82) (ix1 r) ⊗ W (Proc.devRef .tc main_v86) (ix1 r)) ⊗ W (Proc.devRef .tc main_v90) (ix1 r)) := by
  unfold cJ1; after_results; rfl

theorem cJ2_v115 (W : Valuation τ sig (Elt F)) (r : Fin 2000000) :
    after cJ2 W (no_index (Proc.devRef .tc main_v115)) (ix1 r) = (W (Proc.devRef .tc main_v94) (ix1 r) ⊗ W (Proc.devRef .tc main_v111) (ix1 r)) ⊗ (entryRow (W (Proc.devRef .tc main_v1)) r) 8 := by
  unfold cJ2; after_results; rfl

set_option maxHeartbeats 2000000 in
theorem cK_v128 (W : Valuation τ sig (Elt F)) (r : Fin 2000000) :
    after cK W (no_index (Proc.devRef .tc main_v128)) (ix1 r)
      = (co ((entryRow (W (Proc.devRef .tc main_v0)) r) 4) ⊗ co (((W (Proc.devRef .tc main_v82) (ix1 r) ⊗ W (Proc.devRef .tc main_v86) (ix1 r)) ⊗ W (Proc.devRef .tc main_v90) (ix1 r)) ⊗ W (Proc.devRef .tc main_v94) (ix1 r))) ⊗ (entryRow (W (Proc.devRef .tc main_v1)) r) 4 := by
  unfold cK; after_results_simp <;> rfl

/-! ## The second result: the five vectors as columns -/

theorem cL_v134 (W : Valuation τ sig (Elt F)) (r : Fin 2000000) (j : Fin 5) :
    after cL W (no_index (Proc.devRef .tc main_v134)) (ix2 r j)
      = five (W (Proc.devRef .tc main_v4)) (W (Proc.devRef .tc main_v100)) (W (Proc.devRef .tc main_v107)) (W (Proc.devRef .tc main_v115)) (W (Proc.devRef .tc main_v128)) j (ix1 r) := by
  unfold cL; after_results
  dsimp only [Matrix.cons_val]
  repeat (first | rw [unary_result] | (rw [unary_result_ne]; rotate_left; decide))
  refine (join5 _ _ _ _ _ _ r j).trans ?_
  match j with
  | ⟨0, _⟩ => exact as_col _ _ r
  | ⟨1, _⟩ => exact as_col _ _ r
  | ⟨2, _⟩ => exact as_col _ _ r
  | ⟨3, _⟩ => exact as_col _ _ r
  | ⟨4, _⟩ => exact as_col _ _ r

end Cert.ReferenceIdeal.Stages

end
-- ==== Proof.RefWhole.lean ====
/-
  The reference's two results, as whole-array functions of the arguments.

  The fourteen lists run in turn. A buffer a list does not write keeps its contents through it, so each value a list reads is
  what the list that made it left: the two grids come from the first list, every entry vector reads them, and the last list
  of each result joins five vectors as columns. Read at (r, j) and with the entries of sample r of an argument's grid being
  row r of the argument, the first result is column j of the chained row and the second is column j of the complement row of
  sample r: the functions `chainOut` and `compOut` of the argument arrays. The arguments themselves are written by no list.
-/
import proofs.«120184_j19078244729512_1_alg».proof.Proof.RefStages

noncomputable section

namespace Cert.ReferenceIdeal.Whole

open Cert.ReferenceIdeal Cert.ReferenceIdeal.Gen Cert.ReferenceIdeal.Chunks Cert.ReferenceIdeal.Stages
open Idealize.ShloMosaic Idealize.ShloMosaic.TcCoe Idealize.SL.Sem Idealize.ShloMosaic.StableHlo
open Idealize.ShloMosaic.ValueIdx Cert.ReturningRate

variable {F : FTy → Type} [FloatOps F]

/-! ## A buffer a list does not write keeps its contents through it -/

theorem cA_keep' (W : Valuation τ sig (Elt F)) (r : Ref sig .tc) (h : r ∉ cA_W) :
    after cA W (no_index (Proc.devRef .tc r)) = W (Proc.devRef .tc r) := cA_keep W r h
theorem cB_keep' (W : Valuation τ sig (Elt F)) (r : Ref sig .tc) (h : r ∉ cB_W) :
    after cB W (no_index (Proc.devRef .tc r)) = W (Proc.devRef .tc r) := cB_keep W r h
theorem cC_keep' (W : Valuation τ sig (Elt F)) (r : Ref sig .tc) (h : r ∉ cC_W) :
    after cC W (no_index (Proc.devRef .tc r)) = W (Proc.devRef .tc r) := cC_keep W r h
theorem cD_keep' (W : Valuation τ sig (Elt F)) (r : Ref sig .tc) (h : r ∉ cD_W) :
    after cD W (no_index (Proc.devRef .tc r)) = W (Proc.devRef .tc r) := cD_keep W r h
theorem cE1_keep' (W : Valuation τ sig (Elt F)) (r : Ref sig .tc) (h : r ∉ cE1_W) :
    after cE1 W (no_index (Proc.devRef .tc r)) = W (Proc.devRef .tc r) := cE1_keep W r h
theorem cE2_keep' (W : Valuation τ sig (Elt F)) (r : Ref sig .tc) (h : r ∉ cE2_W) :
    after cE2 W (no_index (Proc.devRef .tc r)) = W (Proc.devRef .tc r) := cE2_keep W r h
theorem cF_keep' (W : Valuation τ sig (Elt F)) (r : Ref sig .tc) (h : r ∉ cF_W) :
    after cF W (no_index (Proc.devRef .tc r)) = W (Proc.devRef .tc r) := cF_keep W r h
theorem cG_keep' (W : Valuation τ sig (Elt F)) (r : Ref sig .tc) (h : r ∉ cG_W) :
    after cG W (no_index (Proc.devRef .tc r)) = W (Proc.devRef .tc r) := cG_keep W r h
theorem cH_keep' (W : Valuation τ sig (Elt F)) (r : Ref sig .tc) (h : r ∉ cH_W) :
    after cH W (no_index (Proc.devRef .tc r)) = W (Proc.devRef .tc r) := cH_keep W r h
theorem cI_keep' (W : Valuation τ sig (Elt F)) (r : Ref sig .tc) (h : r ∉ cI_W) :
    after cI W (no_index (Proc.devRef .tc r)) = W (Proc.devRef .tc r) := cI_keep W r h
theorem cJ1_keep' (W : Valuation τ sig (Elt F)) (r : Ref sig .tc) (h : r ∉ cJ1_W) :
    after cJ1 W (no_index (Proc.devRef .tc r)) = W (Proc.devRef .tc r) := cJ1_keep W r h
theorem cJ2_keep' (W : Valuation τ sig (Elt F)) (r : Ref sig .tc) (h : r ∉ cJ2_W) :
    after cJ2 W (no_index (Proc.devRef .tc r)) = W (Proc.devRef .tc r) := cJ2_keep W r h
theorem cK_keep' (W : Valuation τ sig (Elt F)) (r : Ref sig .tc) (h : r ∉ cK_W) :
    after cK W (no_index (Proc.devRef .tc r)) = W (Proc.devRef .tc r) := cK_keep W r h
theorem cL_keep' (W : Valuation τ sig (Elt F)) (r : Ref sig .tc) (h : r ∉ cL_W) :
    after cL W (no_index (Proc.devRef .tc r)) = W (Proc.devRef .tc r) := cL_keep W r h

/-! ## The entries of a sample of an argument's grid are the sample's row of the argument -/

theorem entries_arg0 (V : Valuation τ sig (Elt F)) (r : Fin 2000000) :
    entryRow (grid (V (Proc.devRef .tc main_arg0))) r = rowOf (V (Proc.devRef .tc main_arg0)) r := entryRow_grid _ r

theorem entries_arg1 (V : Valuation τ sig (Elt F)) (r : Fin 2000000) :
    entryRow (grid (V (Proc.devRef .tc main_arg1))) r = rowOf (V (Proc.devRef .tc main_arg1)) r := entryRow_grid _ r

/-! ## The results at one entry -/

set_option maxHeartbeats 2000000 in
/-- The first result at (r, j). -/
theorem out0_at (V : Valuation τ sig (Elt F)) (r : Fin 2000000) (j : Fin 5) :
    after ops V (Proc.devRef .tc main_v78) (ix2 r j)
      = chainRow (rowOf (V (Proc.devRef .tc main_arg0)) r) (rowOf (V (Proc.devRef .tc main_arg1)) r) j := by
  rw [after_ops]
  simp (disch := decide) only [cA_keep', cB_keep', cC_keep', cD_keep', cE1_keep', cE2_keep', cF_keep', cG_keep', cH_keep', cI_keep', cJ1_keep', cJ2_keep', cK_keep', cL_keep', cF_v78]
  match j with
  | ⟨0, _⟩ =>
    dsimp only [five]
    simp (disch := decide) only [cA_keep', cB_keep', cC_keep', cD_keep', cE1_keep', cE2_keep', cF_keep', cG_keep', cH_keep', cI_keep', cJ1_keep', cJ2_keep', cK_keep', cL_keep', cA_v0, cA_v1, cA_v4, cB_v12, cC_v26, cD_v46, cE1_v57, cE1_v58, cE2_v72, cG_v82, cG_v86, cG_v90, cG_v94, cH_v100, cI_v107, cJ1_v111, cJ2_v115, cK_v128, grid_entry]
    first | rfl | (rw [entries_arg0, entries_arg1]; rfl)
  | ⟨1, _⟩ =>
    dsimp only [five]
    simp (disch := decide) only [cA_keep', cB_keep', cC_keep', cD_keep', cE1_keep', cE2_keep', cF_keep', cG_keep', cH_keep', cI_keep', cJ1_keep', cJ2_keep', cK_keep', cL_keep', cA_v0, cA_v1, cA_v4, cB_v12, cC_v26, cD_v46, cE1_v57, cE1_v58, cE2_v72, cG_v82, cG_v86, cG_v90, cG_v94, cH_v100, cI_v107, cJ1_v111, cJ2_v115, cK_v128, grid_entry]
    first | rfl | (rw [entries_arg0, entries_arg1]; rfl)
  | ⟨2, _⟩ =>
    dsimp only [five]
    simp (disch := decide) only [cA_keep', cB_keep', cC_keep', cD_keep', cE1_keep', cE2_keep', cF_keep', cG_keep', cH_keep', cI_keep', cJ1_keep', cJ2_keep', cK_keep', cL_keep', cA_v0, cA_v1, cA_v4, cB_v12, cC_v26, cD_v46, cE1_v57, cE1_v58, cE2_v72, cG_v82, cG_v86, cG_v90, cG_v94, cH_v100, cI_v107, cJ1_v111, cJ2_v115, cK_v128, grid_entry]
    first | rfl | (rw [entries_arg0, entries_arg1]; rfl)
  | ⟨3, _⟩ =>
    dsimp only [five]
    simp (disch := decide) only [cA_keep', cB_keep', cC_keep', cD_keep', cE1_keep', cE2_keep', cF_keep', cG_keep', cH_keep', cI_keep', cJ1_keep', cJ2_keep', cK_keep', cL_keep', cA_v0, cA_v1, cA_v4, cB_v12, cC_v26, cD_v46, cE1_v57, cE1_v58, cE2_v72, cG_v82, cG_v86, cG_v90, cG_v94, cH_v100, cI_v107, cJ1_v111, cJ2_v115, cK_v128, grid_entry]
    first | rfl | (rw [entries_arg0, entries_arg1]; rfl)
  | ⟨4, _⟩ =>
    dsimp only [five]
    simp (disch := decide) only [cA_keep', cB_keep', cC_keep', cD_keep', cE1_keep', cE2_keep', cF_keep', cG_keep', cH_keep', cI_keep', cJ1_keep', cJ2_keep', cK_keep', cL_keep', cA_v0, cA_v1, cA_v4, cB_v12, cC_v26, cD_v46, cE1_v57, cE1_v58, cE2_v72, cG_v82, cG_v86, cG_v90, cG_v94, cH_v100, cI_v107, cJ1_v111, cJ2_v115, cK_v128, grid_entry]
    first | rfl | (rw [entries_arg0, entries_arg1]; rfl)

set_option maxHeartbeats 2000000 in
/-- The second result at (r, j). -/
theorem out1_at (V : Valuation τ sig (Elt F)) (r : Fin 2000000) (j : Fin 5) :
    after ops V (Proc.devRef .tc main_v134) (ix2 r j)
      = compRow (rowOf (V (Proc.devRef .tc main_arg0)) r) (rowOf (V (Proc.devRef .tc main_arg1)) r) j := by
  rw [after_ops]
  simp (disch := decide) only [cA_keep', cB_keep', cC_keep', cD_keep', cE1_keep', cE2_keep', cF_keep', cG_keep', cH_keep', cI_keep', cJ1_keep', cJ2_keep', cK_keep', cL_keep', cL_v134]
  match j with
  | ⟨0, _⟩ =>
    dsimp only [five]
    simp (disch := decide) only [cA_keep', cB_keep', cC_keep', cD_keep', cE1_keep', cE2_keep', cF_keep', cG_keep', cH_keep', cI_keep', cJ1_keep', cJ2_keep', cK_keep', cL_keep', cA_v0, cA_v1, cA_v4, cB_v12, cC_v26, cD_v46, cE1_v57, cE1_v58, cE2_v72, cG_v82, cG_v86, cG_v90, cG_v94, cH_v100, cI_v107, cJ1_v111, cJ2_v115, cK_v128, grid_entry]
    first | rfl | (rw [entries_arg0, entries_arg1]; rfl)
  | ⟨1, _⟩ =>
    dsimp only [five]
    simp (disch := decide) only [cA_keep', cB_keep', cC_keep', cD_keep', cE1_keep', cE2_keep', cF_keep', cG_keep', cH_keep', cI_keep', cJ1_keep', cJ2_keep', cK_keep', cL_keep', cA_v0, cA_v1, cA_v4, cB_v12, cC_v26, cD_v46, cE1_v57, cE1_v58, cE2_v72, cG_v82, cG_v86, cG_v90, cG_v94, cH_v100, cI_v107, cJ1_v111, cJ2_v115, cK_v128, grid_entry]
    first | rfl | (rw [entries_arg0, entries_arg1]; rfl)
  | ⟨2, _⟩ =>
    dsimp only [five]
    simp (disch := decide) only [cA_keep', cB_keep', cC_keep', cD_keep', cE1_keep', cE2_keep', cF_keep', cG_keep', cH_keep', cI_keep', cJ1_keep', cJ2_keep', cK_keep', cL_keep', cA_v0, cA_v1, cA_v4, cB_v12, cC_v26, cD_v46, cE1_v57, cE1_v58, cE2_v72, cG_v82, cG_v86, cG_v90, cG_v94, cH_v100, cI_v107, cJ1_v111, cJ2_v115, cK_v128, grid_entry]
    first | rfl | (rw [entries_arg0, entries_arg1]; rfl)
  | ⟨3, _⟩ =>
    dsimp only [five]
    simp (disch := decide) only [cA_keep', cB_keep', cC_keep', cD_keep', cE1_keep', cE2_keep', cF_keep', cG_keep', cH_keep', cI_keep', cJ1_keep', cJ2_keep', cK_keep', cL_keep', cA_v0, cA_v1, cA_v4, cB_v12, cC_v26, cD_v46, cE1_v57, cE1_v58, cE2_v72, cG_v82, cG_v86, cG_v90, cG_v94, cH_v100, cI_v107, cJ1_v111, cJ2_v115, cK_v128, grid_entry]
    first | rfl | (rw [entries_arg0, entries_arg1]; rfl)
  | ⟨4, _⟩ =>
    dsimp only [five]
    simp (disch := decide) only [cA_keep', cB_keep', cC_keep', cD_keep', cE1_keep', cE2_keep', cF_keep', cG_keep', cH_keep', cI_keep', cJ1_keep', cJ2_keep', cK_keep', cL_keep', cA_v0, cA_v1, cA_v4, cB_v12, cC_v26, cD_v46, cE1_v57, cE1_v58, cE2_v72, cG_v82, cG_v86, cG_v90, cG_v94, cH_v100, cI_v107, cJ1_v111, cJ2_v115, cK_v128, grid_entry]
    first | rfl | (rw [entries_arg0, entries_arg1]; rfl)

/-! ## The results as whole arrays, and the arguments -/

/-- Every index of an n × 5 array is its two coordinates. -/
theorem split5 (i : S2000000x5.Idx) :
    i = ix2 (⟨(i 0).val, (i 0).isLt⟩ : Fin 2000000) (⟨(i 1).val, (i 1).isLt⟩ : Fin 5) :=
  funext fun a => match a with | ⟨0, _⟩ => rfl | ⟨1, _⟩ => rfl

theorem out0 (V : Valuation τ sig (Elt F)) :
    after ops V (Proc.devRef .tc main_v78) = chainOut (V (Proc.devRef .tc main_arg0)) (V (Proc.devRef .tc main_arg1)) := by
  funext i
  rw [split5 i]
  exact out0_at V _ _

theorem out1 (V : Valuation τ sig (Elt F)) :
    after ops V (Proc.devRef .tc main_v134) = compOut (V (Proc.devRef .tc main_arg0)) (V (Proc.devRef .tc main_arg1)) := by
  funext i
  rw [split5 i]
  exact out1_at V _ _

theorem kept0 (V : Valuation τ sig (Elt F)) :
    after ops V (Proc.devRef .tc main_arg0) = V (Proc.devRef .tc main_arg0) := by
  rw [after_ops]
  simp (disch := decide) only [cA_keep', cB_keep', cC_keep', cD_keep', cE1_keep', cE2_keep', cF_keep', cG_keep', cH_keep', cI_keep', cJ1_keep', cJ2_keep', cK_keep', cL_keep']

theorem kept1 (V : Valuation τ sig (Elt F)) :
    after ops V (Proc.devRef .tc main_arg1) = V (Proc.devRef .tc main_arg1) := by
  rw [after_ops]
  simp (disch := decide) only [cA_keep', cB_keep', cC_keep', cD_keep', cE1_keep', cE2_keep', cF_keep', cG_keep', cH_keep', cI_keep', cJ1_keep', cJ2_keep', cK_keep', cL_keep']

/-- On every device, from any memory with zero counters: every weakly fair execution of the reference terminates with its
    two results at `chainOut` and `compOut` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
          = chainOut (m ((c.tc : Thread nD τ).loc main_arg0)) (m ((c.tc : Thread nD τ).loc main_arg1))
      ∧ r.2.mem ((c.tc : Thread nD τ).loc main_v134)
          = compOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v78).trans (out0 _), (h c main_v134).trans (out1 _),
      (h c main_arg0).trans (kept0 _), (h c main_arg1).trans (kept1 _)⟩)
    (Chunks.run m ρ)

end Cert.ReferenceIdeal.Whole

end
-- ==== Proof.lean ====
/-
  The kernel and its reference compute, for each of 2,000,000 samples, two rows of five numbers from the sample's
  25 probabilities p(a, b) and 25 masks m(a, b) (a 5 × 5 grid, entry (a, b) in column 5·a + b):

    chain:       0,  p40·p41·m31,  p40·p42 + p31·p32·m22,  p40·p43 + p31·p33 + p22·p23·m13,
                 p40·p44 + p31·p34 + p22·p24 + p13·p14·m04
    complement:  0,  q31·(1 − q40)·m31,  q22·(1 − q40·q31)·m22,  q13·(1 − q40·q31·q22)·m13,
                 (1 − p04)·(1 − q40·q31·q22·q13)·m04,          with q = 1 − p.

  The kernel reads the columns straight out of blocks of 2000 samples and joins five single columns; the reference views
  each argument as 5 × 5 grids, takes entries as vectors over the samples, and stacks five vectors. Both apply the same
  multiplications, additions and subtractions in the same order to the same entries, so the two results are the same
  function of the arguments — `chainOut` and `compOut` (Proof/Spec.lean) — over any float instance: no law of arithmetic
  and no finiteness of the inputs is used, only where each entry is read from.

  Kernel side: the body's stored blocks at one entry (Proof/KernelRows.lean), then the 1000 blocks of the grid tiling the
  arrays (Proof/KernelValue.lean, over the generated frame run). Reference side: its 145 operations in fourteen lists
  (Proof/RefOps.lean), what each list leaves from any contents (Proof/RefStages.lean), and the lists in turn
  (Proof/RefWhole.lean). The frames of the two kernel programs are the generated ones; the reference's frame is its run
  with the results dropped; the ideal pass rewrote nothing, so the idealization claim is trivial.
-/
import proofs.«120184_j19078244729512_1_alg».proof.Defs
import proofs.«120184_j19078244729512_1_alg».proof.Proof.Gen.Kernel
import proofs.«120184_j19078244729512_1_alg».proof.Proof.Gen.Kernel.Skeleton
import proofs.«120184_j19078244729512_1_alg».proof.Proof.Gen.Kernel.Launch
import proofs.«120184_j19078244729512_1_alg».proof.Proof.Gen.Kernel.Points
import proofs.«120184_j19078244729512_1_alg».proof.Proof.Gen.Kernel.Frame
import proofs.«120184_j19078244729512_1_alg».proof.Proof.Gen.KernelIdeal
import proofs.«120184_j19078244729512_1_alg».proof.Proof.Gen.KernelIdeal.Skeleton
import proofs.«120184_j19078244729512_1_alg».proof.Proof.Gen.KernelIdeal.Launch
import proofs.«120184_j19078244729512_1_alg».proof.Proof.Gen.KernelIdeal.Points
import proofs.«120184_j19078244729512_1_alg».proof.Proof.Gen.KernelIdeal.Frame
import proofs.«120184_j19078244729512_1_alg».proof.Proof.Gen.KernelIdeal.Value
import proofs.«120184_j19078244729512_1_alg».proof.Proof.Gen.ReferenceIdeal
import proofs.«120184_j19078244729512_1_alg».proof.Proof.Gen.Pre_finite_inputs
import proofs.«120184_j19078244729512_1_alg».proof.Proof.KernelValue
import proofs.«120184_j19078244729512_1_alg».proof.Proof.RefWhole
import Idealize.ShloMosaic.Adequacy
import Idealize.ShloMosaic.Init

noncomputable section

namespace Cert.Proof

open Idealize.ShloMosaic Idealize.ShloMosaic.TcCoe Idealize.SL.Sem Cert.ReturningRate

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference runs and leaves its arguments as they were: its run with the two results dropped. -/
theorem frame_referenceIdeal : Cert.frame_ReferenceIdeal :=
  fun m ρ _ => (θ_run Cert.ReferenceIdeal.defs _ _).mono (fun _ h c => (h c).2.2)
    (Cert.ReferenceIdeal.Whole.run (F := Ideal) m ρ)

/-- Run from memories that agree on the arguments, the idealized kernel and the idealized reference end with both results
    at the same functions of the arguments. -/
theorem algebraic : Cert.algebraic_KernelIdeal_ReferenceIdeal := by
  intro m ρ m' ρ' _ hagree
  refine ⟨_, _, Cert.KernelIdeal.Whole.run (F := Ideal) m ρ, ?_⟩
  refine (θ_run Cert.ReferenceIdeal.defs _ _).mono (fun _ h c => ⟨(h c).1.trans ?_, (h c).2.1.trans ?_, (h c).2.2⟩)
    (Cert.ReferenceIdeal.Whole.run (F := Ideal) m' ρ')
  · rw [(hagree c).1, (hagree c).2]
  · rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
